-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S4096x64 : Shape := ⟨2, ![4096, 64]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S65536x4096 .f32) (main_arg1 : FVec F S4096x64 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S65536x4096 : Shape := ⟨2, ![65536, 4096]⟩
abbrev S4096x64 : Shape := ⟨2, ![4096, 64]⟩
abbrev S65536x64 : Shape := ⟨2, ![65536, 64]⟩
abbrev S2048x1024 : Shape := ⟨2, ![2048, 1024]⟩
abbrev S1024x64 : Shape := ⟨2, ![1024, 64]⟩
abbrev S2048x64 : Shape := ⟨2, ![2048, 64]⟩

abbrev nBuf : Space → Nat
  | .hbm => 3
  | .vmem => 7
  | .smem => 0
  | _ => 0

abbrev bufTy : (tb : Table) → Fin (tcTables nBuf tb) → BufTy
  | .hbm, ⟨0, _⟩ => ⟨S65536x4096, .f32⟩
  | .hbm, ⟨1, _⟩ => ⟨S4096x64, .f32⟩
  | .hbm, ⟨2, _⟩ => ⟨S65536x64, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S1024x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1024_S2048x1024_0_0 : ∀ a, (![0, 0] : Fin 2 → Nat) a + S2048x1024.size a ≤ S2048x1024.size a
  h_S2048x1024 : 0 < S2048x1024.numel
  inb_S1024x64_S1024x64_0_0 : ∀ a, (![0, 0] : Fin 2 → Nat) a + S1024x64.size a ≤ S1024x64.size a
  h_S1024x64 : 0 < S1024x64.numel
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x4096.size a
  hwx0_0 : ∀ i : grid0.Coords, EltTy.bits .f32 = 32 ∨ (Rect.block (s := S65536x4096) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S65536x64.size a
  hwx0_2 : ∀ i : grid0.Coords, EltTy.bits .f32 = 32 ∨ (Rect.block (s := S65536x64) S2048x64.size (cc0_transform_2 i) (hinb0_2 i)).WholeWords (EltTy.packing .f32)

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x4096 : Shape := ⟨2, ![65536, 4096]⟩
abbrev S4096x64 : Shape := ⟨2, ![4096, 64]⟩
abbrev S65536x64 : Shape := ⟨2, ![65536, 64]⟩

abbrev nBuf : Space → Nat
  | .hbm => 3
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S4096x64, .f32⟩
  | .hbm, ⟨2, _⟩ => ⟨S65536x64, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S65536x4096_S4096x64_S65536x64_1_0_0_1_n_n_wf : DotDims.WF S65536x4096 S4096x64 S65536x64 [1] [0] [0] [1] [] []

variable [Facts₀]

def dot_S65536x4096_S4096x64_S65536x64_1_0_0_1_n_n : DotDims S65536x4096 S4096x64 S65536x64 where
  lhsContracting := [1]
  rhsContracting := [0]
  lhsNonContracting := [0]
  rhsNonContracting := [1]
  lhsBatch := []
  rhsBatch := []
  wf := dot_S65536x4096_S4096x64_S65536x64_1_0_0_1_n_n_wf

class Facts : Prop extends Facts₀ where

variable [Facts]
-- ==== Proof.Pieces.lean ====
/-
  What one run of the body leaves behind, as values.

  The body has three control cases along the reduction axis of the grid.  At the first point of a run it resets the
  accumulator to the zero block and then adds the point's block product, so it leaves `update zero x y`; at a middle
  point it leaves `update acc x y` over what the point before left; at the last point it does the same and copies
  the accumulator into the output block.  Each statement below reads the stores the run performed back as one value:
  every store covers the whole [2048, 64] buffer, so the last store decides the contents, and every load reads a
  whole buffer, so it returns that buffer's contents.  The statements hold at any float instance.
-/
import proofs.«100020_j16475494548010_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- Every load and store of the body starts at the origin of its buffer. -/
theorem origin : (![0, 0] : Fin 2 → Nat) = fun _ => 0 := funext fun a => by fin_cases a <;> rfl

/-- First point of a run: the accumulator ends at the update of the zero block. -/
theorem acc_first (c : Dev nD) (i : grid0.Coords) (a2 : Memref sig .tc .vmem S2048x1024 .f32) (h2 : a2.IsWhole) (a3 : Memref sig .tc .vmem S1024x64 .f32) (h3 : a3.IsWhole) (a4 : Memref sig .tc .vmem S2048x64 .f32) (h4 : a4.IsWhole) (a5 : Memref sig .tc .vmem S2048x64 .f32) (h5 : a5.IsWhole) (hc0 : cond0_0 i) (hc1 : ¬cond0_1 i)
    (x0 : Vec F S2048x1024 .f32) (x1 : Vec F S1024x64 .f32) :
    sout0_A_0 c i a2 h2 a3 h3 a4 h4 a5 h5 hc0 hc1 x0 x1 = k0_pay2 (k0_pay1 (F := F)) x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S2048x64) origin, View.readCov_unit_zero (S := S2048x64) _ origin]
  simp only [View.readAt_eq_ld, h2.read_unread, h3.read_unread, View.ld_unit_zero (S := S2048x1024) origin,
    View.ld_unit_zero (S := S1024x64) origin]

/-- A middle point: the accumulator ends at the update of what the point before left. -/
theorem acc_middle (c : Dev nD) (i : grid0.Coords) (a2 : Memref sig .tc .vmem S2048x1024 .f32) (h2 : a2.IsWhole) (a3 : Memref sig .tc .vmem S1024x64 .f32) (h3 : a3.IsWhole) (a4 : Memref sig .tc .vmem S2048x64 .f32) (h4 : a4.IsWhole) (a5 : Memref sig .tc .vmem S2048x64 .f32) (h5 : a5.IsWhole) (hc0 : ¬cond0_0 i) (hc1 : ¬cond0_1 i)
    (x0 : Vec F S2048x1024 .f32) (x1 : Vec F S1024x64 .f32) (xs : Vec F S2048x64 .f32) :
    sout0_B_0 c i a2 h2 a3 h3 a4 h4 a5 h5 hc0 hc1 x0 x1 xs = k0_pay2 xs x0 x1 := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero origin]
  simp only [View.readAt_eq_ld, h2.read_unread, h3.read_unread, h5.read_unread, View.ld_unit_zero (S := S2048x1024) origin,
    View.ld_unit_zero (S := S1024x64) origin, View.ld_unit_zero (S := S2048x64) origin]

/-- The last point of a run: the accumulator ends at the update of what the point before left … -/
theorem acc_last (c : Dev nD) (i : grid0.Coords) (a2 : Memref sig .tc .vmem S2048x1024 .f32) (h2 : a2.IsWhole) (a3 : Memref sig .tc .vmem S1024x64 .f32) (h3 : a3.IsWhole) (a4 : Memref sig .tc .vmem S2048x64 .f32) (h4 : a4.IsWhole) (a5 : Memref sig .tc .vmem S2048x64 .f32) (h5 : a5.IsWhole) (hc0 : ¬cond0_0 i) (hc1 : cond0_1 i)
    (x0 : Vec F S2048x1024 .f32) (x1 : Vec F S1024x64 .f32) (xs : Vec F S2048x64 .f32) :
    sout0_C_0 c i a2 h2 a3 h3 a4 h4 a5 h5 hc0 hc1 x0 x1 xs = k0_pay2 xs x0 x1 := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero origin]
  simp only [View.readAt_eq_ld, h2.read_unread, h3.read_unread, h5.read_unread, View.ld_unit_zero (S := S2048x1024) origin,
    View.ld_unit_zero (S := S1024x64) origin, View.ld_unit_zero (S := S2048x64) origin]

/-- … and the output block ends at the same value, the accumulator read back after its store. -/
theorem out_last (c : Dev nD) (i : grid0.Coords) (a2 : Memref sig .tc .vmem S2048x1024 .f32) (h2 : a2.IsWhole) (a3 : Memref sig .tc .vmem S1024x64 .f32) (h3 : a3.IsWhole) (a4 : Memref sig .tc .vmem S2048x64 .f32) (h4 : a4.IsWhole) (a5 : Memref sig .tc .vmem S2048x64 .f32) (h5 : a5.IsWhole) (hc0 : ¬cond0_0 i) (hc1 : cond0_1 i)
    (x0 : Vec F S2048x1024 .f32) (x1 : Vec F S1024x64 .f32) (xs : Vec F S2048x64 .f32) :
    out0_C_2 c i a2 h2 a3 h3 a4 h4 a5 h5 hc0 hc1 x0 x1 xs = k0_pay2 xs x0 x1 := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero origin]
  simp only [View.readAt_eq_ld, h2.read_unread, h3.read_unread, h5.read_unread, View.readCov_unit_zero (S := S2048x64) _ origin,
    View.ld_unit_zero (S := S2048x1024) origin, View.ld_unit_zero (S := S1024x64) origin, View.ld_unit_zero (S := S2048x64) origin]

end Cert.KernelIdeal.Pieces

end
-- ==== Proof.BlockProduct.lean ====
/-
  One grid point's arithmetic, read at an index of the [2048, 64] accumulator block.

  At the ideal instance the body's update is `acc + x · y` for the point's [2048, 1024] block `x` of the left
  operand and [1024, 64] block `y` of the right one: its entry `(p, q)` is `acc[p, q]` plus the inner product of
  row `p` of `x` with column `q` of `y`, a plain sum of 1024 products on the extended reals (the matrix unit
  accumulates into a zero block, and a change of shape to the same shape moves nothing).  The reset writes the zero
  block.
-/
import proofs.«100020_j16475494548010_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## Which entries of the two blocks an output entry contracts -/

/-- The left block is read in the output entry's row … -/
theorem lhs_row (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
/-- … at the contracted position; -/
theorem lhs_col (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
/-- the right block at the contracted position … -/
theorem rhs_row (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
/-- … in the output entry's column. -/
theorem rhs_col (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-! ## The block product at an entry -/

/-- The product of the two blocks into a zero accumulator, at entry `(p, q)`: the inner product of row `p` of the
    left block with column `q` of the right one. -/
theorem product_apply (x : FVec Ideal S2048x1024 .f32) (y : FVec Ideal S1024x64 .f32) (p : Fin 2048) (q : Fin 64) :
    matmul (F := Ideal) (φ₁ := .f32) (φ₂ := .f32) dot_S2048x1024_S1024x64_S2048x64_1_0_0_1_n_n none x y (constant S2048x64 .f32 0x00000000#32) (ix2 p q)
      = ∑ k : Fin 1024, x (ix2 p k) * y (ix2 k q) := by
  simp only [matmul]
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p q) ((contrEquiv1 dot_S2048x1024_S1024x64_S2048x64_1_0_0_1_n_n 1024 rfl rfl).symm k) = ix2 p k := funext fun a => Fin.ext (by
    match a with
    | ⟨0, _⟩ => exact lhs_row _ _
    | ⟨1, _⟩ => exact (lhs_col _ _).trans hk)
  have er : dot_S2048x1024_S1024x64_S2048x64_1_0_0_1_n_n.rhsIdx (ix2 p q) ((contrEquiv1 dot_S2048x1024_S1024x64_S2048x64_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The update the body stores back into the accumulator, at entry `(p, q)`: what was there plus the inner product. -/
theorem update_apply (acc : Vec Ideal S2048x64 .f32) (x : Vec Ideal S2048x1024 .f32) (y : Vec Ideal S1024x64 .f32)
    (p : Fin 2048) (q : Fin 64) :
    k0_pay2 (F := Ideal) acc x y (ix2 p q) = acc (ix2 p q) + ∑ k : Fin 1024, x (ix2 p k) * y (ix2 k q) := by
  unfold k0_pay2
  rw [shapeCast_self, addf_apply, product_apply]

/-- The reset block is zero everywhere. -/
theorem reset_apply (j : S2048x64.Idx) : k0_pay1 (F := Ideal) j = 0 := by
  unfold k0_pay1
  rw [shapeCast_self, broadcast_apply]
  exact Ideal.ofBits_zero_f32

end Cert.KernelIdeal.BlockProduct

end
-- ==== Proof.SumSplit.lean ====
/-
  Regrouping a finite sum into consecutive runs.

  In a commutative additive monoid a sum over the first `J * n` naturals is the sum, over the `n` consecutive
  runs of length `J`, of each run's own sum.  Only associativity and the unit law of `+` are used, so the
  statement holds on the extended reals with no finiteness hypothesis: this is the law by which a contraction
  over a long axis equals the same contraction carried out chunk by chunk and accumulated.
-/
import Mathlib.Algebra.BigOperators.Group.Finset.Basic
import Mathlib.Algebra.BigOperators.Fin

namespace Cert.SumSplit

open Finset

variable {β : Type*} [AddCommMonoid β]

/-- A sum over `range (J * n)` is the sum over the `n` runs `J * s, …, J * s + (J - 1)` of each run's sum. -/
theorem sum_range_mul_runs (f : ℕ → β) (J : ℕ) :
    ∀ n : ℕ, ∑ k ∈ range (J * n), f k = ∑ s ∈ range n, ∑ k ∈ range J, f (J * s + k)
  | 0 => by simp
  | n + 1 => by
    rw [Nat.mul_succ, Finset.sum_range_add, sum_range_mul_runs f J n, Finset.sum_range_succ]

/-- The same with the long sum indexed by `Fin (J * n)`, the form a contraction over an axis is read in. -/
theorem sum_fin_mul_runs (f : ℕ → β) (J n : ℕ) :
    ∑ k : Fin (J * n), f k.val = ∑ s ∈ range n, ∑ k ∈ range J, f (J * s + k) := by
  rw [← Finset.sum_range (fun k => f k), sum_range_mul_runs]

/-- And with each run indexed by `Fin J`. -/
theorem sum_fin_mul_runs_fin (f : ℕ → β) (J n : ℕ) :
    ∑ k : Fin (J * n), f k.val = ∑ s ∈ range n, ∑ k : Fin J, f (J * s + k.val) := by
  rw [sum_fin_mul_runs]
  refine Finset.sum_congr rfl fun s _ => ?_
  exact Finset.sum_range (fun k => f (J * s + k))

end Cert.SumSplit
-- ==== Proof.Spec.lean ====
/-
  The specification: the matrix product of a [65536, 4096] array with a [4096, 64] array over the extended reals,
  entry by entry, and the same entry written as four partial inner products of 1024 terms each.

  `product A B (r, q) = Σ_{k < 4096} A[r, k] · B[k, q]`.  Splitting the contracted axis into the four consecutive
  chunks `1024·s … 1024·s + 1023` only regroups the sum (`Cert.SumSplit`), so no finiteness of the entries is needed.
  To regroup, the arrays are read at natural-number coordinates (`at2`, zero outside the array: the sums below never
  leave it).
-/
import proofs.«100020_j16475494548010_1_alg».proof.Proof.SumSplit
import Idealize.ShloMosaic.Lib.ValueIdx
import Mathlib.Data.EReal.Basic

noncomputable section

namespace Cert.Spec

open Idealize.ShloMosaic Idealize.ShloMosaic.ValueIdx Finset

/-- A rank-2 array read at natural coordinates: its entry inside the array, zero outside. -/
def at2 {R C : ℕ} (A : (⟨2, ![R, C]⟩ : Shape).Idx → EReal) (r k : ℕ) : EReal :=
  if h : r < R ∧ k < C then A (ix2 ⟨r, h.1⟩ ⟨k, h.2⟩) else 0

/-- Inside the array it is the entry. -/
theorem at2_fin {R C : ℕ} (A : (⟨2, ![R, C]⟩ : Shape).Idx → EReal) (r : Fin R) (k : Fin C) :
    at2 A r.val k.val = A (ix2 r k) := by
  unfold at2
  rw [dif_pos ⟨r.isLt, k.isLt⟩]

/-- The same with the bounds given beside the coordinates. -/
theorem at2_of_lt {R C : ℕ} (A : (⟨2, ![R, C]⟩ : Shape).Idx → EReal) (r k : ℕ) (hr : r < R) (hk : k < C) :
    at2 A r k = A (ix2 ⟨r, hr⟩ ⟨k, hk⟩) := by
  unfold at2
  rw [dif_pos ⟨hr, hk⟩]

/-- The matrix product, entry by entry. -/
def product (A : (⟨2, ![65536, 4096]⟩ : Shape).Idx → EReal) (B : (⟨2, ![4096, 64]⟩ : Shape).Idx → EReal) :
    (⟨2, ![65536, 64]⟩ : Shape).Idx → EReal :=
  fun i => ∑ k : Fin 4096, A (ix2 (i 0) k) * B (ix2 k (i 1))

/-- An entry of the product as the sum of its four partial inner products over consecutive chunks of 1024. -/
theorem product_eq_runs (A : (⟨2, ![65536, 4096]⟩ : Shape).Idx → EReal) (B : (⟨2, ![4096, 64]⟩ : Shape).Idx → EReal)
    (r : Fin 65536) (q : Fin 64) :
    product A B (ix2 r q)
      = ∑ s ∈ range 4, ∑ k : Fin 1024, at2 A r.val (1024 * s + k.val) * at2 B (1024 * s + k.val) q.val := by
  have h := Cert.SumSplit.sum_fin_mul_runs_fin (fun n => at2 A r.val n * at2 B n q.val) 1024 4
  rw [← h]
  unfold product
  refine Finset.sum_congr rfl fun k _ => ?_
  show A (ix2 r k) * B (ix2 k q) = at2 A r.val k.val * at2 B k.val q.val
  rw [at2_fin, at2_fin]

end Cert.Spec

end
-- ==== Proof.Blocks.lean ====
/-
  Which entries of the argument arrays a grid point's blocks hold.

  The grid is 32 × 4: point `t` works on row tile `t / 4` and reduction chunk `t % 4`.  Its left block is rows
  `2048·(t/4) …` and columns `1024·(t%4) …` of the [65536, 4096] array, its right block rows `1024·(t%4) …` of the
  [4096, 64] array, and the output block it belongs to is rows `2048·(t/4) …` of the [65536, 64] result.  A block's
  coordinate on an axis is always the block index times the block size plus the coordinate inside the block; the block
  indices are the printed index maps, evaluated once over the 128 grid points.
-/
import proofs.«100020_j16475494548010_1_alg».proof.Proof.Gen.KernelIdeal.Frame
import proofs.«100020_j16475494548010_1_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.Spec Idealize.ShloMosaic Idealize.ShloMosaic.TcCoe Idealize.SL.Sem
open Idealize.ShloMosaic.ValueIdx

variable (m : (ℓ : Loc nD τ sig) → Buf (Elt Ideal) ℓ)

/-- The left argument array as the region finds it. -/
abbrev lhsArr (c : Dev nD) : Vec Ideal S65536x4096 .f32 := V m c main_arg0
/-- The right argument array as the region finds it. -/
abbrev rhsArr (c : Dev nD) : Vec Ideal S4096x64 .f32 := V m c main_arg1
/-- Point `t`'s block of the left array. -/
abbrev lhsBlk (c : Dev nD) (t : Fin cfg0.N) : Vec Ideal S2048x1024 .f32 := iblk m c 0 t
/-- Point `t`'s block of the right array. -/
abbrev rhsBlk (c : Dev nD) (t : Fin cfg0.N) : Vec Ideal S1024x64 .f32 := iblk m c 1 t

/-- The three windows' block indices at point `t`: row tile `t / 4`, reduction chunk `t % 4`. -/
theorem block_indices : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Entry `(p, k)` of point `t`'s left block is entry `(2048·(t/4) + p, 1024·(t%4) + k)` of the left array. -/
theorem lhsBlk_apply (c : Dev nD) (t : Fin cfg0.N) (p : Fin 2048) (k : Fin 1024) :
    lhsBlk m c t (ix2 p k) = at2 (lhsArr m c) (2048 * (t.val / 4) + p.val) (1024 * (t.val % 4) + k.val) := by
  have hN : t.val < 128 := lt_of_lt_of_eq t.isLt (show cfg0.N = 128 from N_0)
  obtain ⟨e0, e1, -, -, -, -⟩ := block_indices t
  rw [at2_of_lt _ _ _ (by have := p.isLt; omega) (by have := k.isLt; have := Nat.mod_lt t.val (show 0 < 4 by decide); omega)]
  show V m c main_arg0 (((cfg0.win 0).blk t).view.emb (ix2 p k)) = V m c main_arg0 _
  refine congrArg (V m c main_arg0) ?_
  funext a; apply Fin.ext
  match a with
  | ⟨0, _⟩ => show win0_0.index t (0 : Fin 2) * 2048 + 1 * p.val = 2048 * (t.val / 4) + p.val; omega
  | ⟨1, _⟩ => show win0_0.index t (1 : Fin 2) * 1024 + 1 * k.val = 1024 * (t.val % 4) + k.val; omega

/-- Entry `(k, q)` of point `t`'s right block is entry `(1024·(t%4) + k, q)` of the right array. -/
theorem rhsBlk_apply (c : Dev nD) (t : Fin cfg0.N) (k : Fin 1024) (q : Fin 64) :
    rhsBlk m c t (ix2 k q) = at2 (rhsArr m c) (1024 * (t.val % 4) + k.val) q.val := by
  have hN : t.val < 128 := lt_of_lt_of_eq t.isLt (show cfg0.N = 128 from N_0)
  obtain ⟨-, -, e2, e3, -, -⟩ := block_indices t
  rw [at2_of_lt _ _ _ (by have := k.isLt; have := Nat.mod_lt t.val (show 0 < 4 by decide); omega) q.isLt]
  show V m c main_arg1 (((cfg0.win 1).blk t).view.emb (ix2 k q)) = V m c main_arg1 _
  refine congrArg (V m c main_arg1) ?_
  funext a; apply Fin.ext
  match a with
  | ⟨0, _⟩ => show win0_1.index t (0 : Fin 2) * 1024 + 1 * k.val = 1024 * (t.val % 4) + k.val; omega
  | ⟨1, _⟩ => show win0_1.index t (1 : Fin 2) * 64 + 1 * q.val = q.val; omega

end Cert.KernelIdeal.Blocks

end
-- ==== Proof.Accumulate.lean ====
/-
  The accumulation along the reduction axis.

  Within one row tile the four points `4r, 4r+1, 4r+2, 4r+3` run in order.  The first resets the accumulator and adds
  its partial inner product, each later one adds its own, and the last also copies the accumulator to the output
  block.  So after point `t` the accumulator's entry `(p, q)` is `0` plus the partial inner products of the points
  `4·(t/4), …, t`, and at `t ≡ 3 (mod 4)` the output block holds the sum of all four — which is the entry
  `(2048·(t/4) + p, q)` of the whole matrix product, its contraction regrouped into four chunks of 1024.
-/
import proofs.«100020_j16475494548010_1_alg».proof.Proof.Gen.KernelIdeal.Value
import proofs.«100020_j16475494548010_1_alg».proof.Proof.Pieces
import proofs.«100020_j16475494548010_1_alg».proof.Proof.BlockProduct
import proofs.«100020_j16475494548010_1_alg».proof.Proof.Blocks
import Idealize.ShloMosaic.Lib.Pipeline.Value

noncomputable section

namespace Cert.KernelIdeal.Accumulate

open Cert.KernelIdeal Cert.KernelIdeal.Gen Cert.KernelIdeal.Value Cert.KernelIdeal.Blocks Cert.Spec
open Idealize.ShloMosaic Idealize.ShloMosaic.TcCoe Idealize.SL.Sem Idealize.ShloMosaic.ValueIdx Finset

variable (m : (ℓ : Loc nD τ sig) → Buf (Elt Ideal) ℓ)

/-- Point `n`'s addend at an entry of the accumulator: the inner product of the entry's row of the point's left
    block with the entry's column of its right block (zero past the grid, where it is never used). -/
def addend (c : Dev nD) (n : ℕ) (j : S2048x64.Idx) : EReal :=
  if h : n < cfg0.N then ∑ k : Fin 1024, lhsBlk m c ⟨n, h⟩ (ix2 (j 0) k) * rhsBlk m c ⟨n, h⟩ (ix2 k (j 1)) else 0

theorem addend_of_lt (c : Dev nD) (n : ℕ) (h : n < cfg0.N) (p : Fin 2048) (q : Fin 64) :
    addend m c n (ix2 p q) = ∑ k : Fin 1024, lhsBlk m c ⟨n, h⟩ (ix2 p k) * rhsBlk m c ⟨n, h⟩ (ix2 k q) := by
  unfold addend
  rw [dif_pos h]

/-- The first point of a run leaves `0` plus its addend, whatever the accumulator held. -/
theorem step_first (c : Dev nD) (n : ℕ) (h : n < cfg0.N) (h0 : n % 4 = 0) (acc : Vec Ideal S2048x64 .f32) (j : S2048x64.Idx) :
    scAt0_0 m c n h acc j = 0 + addend m c n j := by
  obtain ⟨p, q, rfl⟩ : ∃ (p : Fin 2048) (q : Fin 64), j = ix2 p q := ⟨j 0, j 1, eq_ix2 j⟩
  have h1 : ¬n % 4 = 3 := by omega
  unfold scAt0_0
  rw [dif_pos h0, dif_neg h1]
  refine (congrFun (Pieces.acc_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) _ _ (lhsBlk m c ⟨n, h⟩) (rhsBlk m c ⟨n, h⟩)) (ix2 p q)).trans ?_
  rw [BlockProduct.update_apply, BlockProduct.reset_apply, addend_of_lt m c n h]

/-- Every later point of a run leaves what the point before left plus its addend. -/
theorem step_later (c : Dev nD) (n : ℕ) (h : n < cfg0.N) (h0 : ¬n % 4 = 0) (acc : Vec Ideal S2048x64 .f32) (j : S2048x64.Idx) :
    scAt0_0 m c n h acc j = acc j + addend m c n j := by
  obtain ⟨p, q, rfl⟩ : ∃ (p : Fin 2048) (q : Fin 64), j = ix2 p q := ⟨j 0, j 1, eq_ix2 j⟩
  unfold scAt0_0
  rw [dif_neg h0]
  by_cases h1 : n % 4 = 3
  · rw [dif_pos h1]
    refine (congrFun (Pieces.acc_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) _ _ (lhsBlk m c ⟨n, h⟩) (rhsBlk m c ⟨n, h⟩) acc) (ix2 p q)).trans ?_
    rw [BlockProduct.update_apply, addend_of_lt m c n h]
  · rw [dif_neg h1]
    refine (congrFun (Pieces.acc_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) scM0_0 (Memref.isWhole_whole _) _ _ (lhsBlk m c ⟨n, h⟩) (rhsBlk m c ⟨n, h⟩) acc) (ix2 p q)).trans ?_
    rw [BlockProduct.update_apply, addend_of_lt m c n h]

/-- The accumulator after point `t`: `0` plus the addends of its run's points up to `t`. -/
theorem acc_after (c : Dev nD) (t : Fin cfg0.N) (j : S2048x64.Idx) :
    (outsAt0 m c t.val t.isLt).2 j = 0 + ∑ s ∈ range (t.val % 4 + 1), addend m c (4 * (t.val / 4) + s) j := by
  rw [soutsAt0_0_eq]
  exact Pipeline.accAt_add_apply (fun n h => scAt0_0 m c n h (VS0_0.read (Elt Ideal) VS0_0.junk)) (scAt0_0 m c)
    (fun _ => (0 : EReal)) (addend m c) (4 * (t.val / 4)) 3
    (fun h i => step_first m c _ h (Nat.mul_mod_right 4 _) _ i)
    (fun n h acc i hb he => step_later m c n h (by omega) acc i)
    (t.val % 4) (by have := Nat.mod_lt t.val (show 0 < 4 by decide); omega) _ j

/-- At the last point of a run the output block is the accumulator. -/
theorem out_eq_acc (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (Pieces.out_last (F := Ideal) c (grid0.coords t) (ms0_0 t) (hs0_0 t) (ms0_1 t) (hs0_1 t) (ms0_2 t) (hs0_2 t) scM0_0 (Memref.isWhole_whole _) _ _ (iblk m c 0 t) (iblk m c 1 t) _).trans
    (Pieces.acc_last (F := Ideal) c (grid0.coords t) (ms0_0 t) (hs0_0 t) (ms0_1 t) (hs0_1 t) (ms0_2 t) (hs0_2 t) scM0_0 (Memref.isWhole_whole _) _ _ (iblk m c 0 t) (iblk m c 1 t) _).symm

/-- So at the last point of row tile `t / 4` the output block's entry `(p, q)` is the entry
    `(2048·(t/4) + p, q)` of the matrix product of the two argument arrays. -/
theorem out_apply (c : Dev nD) (t : Fin cfg0.N) (h3 : t.val % 4 = 3) (p : Fin 2048) (q : Fin 64)
    (hr : 2048 * (t.val / 4) + p.val < 65536) :
    (outsAt0 m c t.val t.isLt).1 (ix2 p q)
      = product (lhsArr m c) (rhsArr m c) (ix2 ⟨2048 * (t.val / 4) + p.val, hr⟩ q) := by
  have hN : t.val < 128 := lt_of_lt_of_eq t.isLt (show cfg0.N = 128 from N_0)
  rw [out_eq_acc m c t h3, acc_after, h3, product_eq_runs, zero_add]
  refine Finset.sum_congr rfl fun s hs => ?_
  have hs4 : s < 4 := Finset.mem_range.mp hs
  have hlt : 4 * (t.val / 4) + s < cfg0.N := lt_of_lt_of_eq (by omega) (show 128 = cfg0.N from N_0.symm)
  have e1 : (4 * (t.val / 4) + s) / 4 = t.val / 4 := by omega
  have e2 : (4 * (t.val / 4) + s) % 4 = s := by omega
  rw [addend_of_lt m c _ hlt]
  refine Finset.sum_congr rfl fun k _ => ?_
  rw [lhsBlk_apply, rhsBlk_apply]
  simp only [e1, e2]

end Cert.KernelIdeal.Accumulate

end
-- ==== Proof.WholeArray.lean ====
/-
  From the output blocks to the result array.

  The result is written back only at the last point of each row tile, `t ≡ 3 (mod 4)`, and what is written there is
  rows `2048·(t/4) … 2048·(t/4) + 2047` of the matrix product of the two argument arrays (`Accumulate.out_apply`).
  Row `r` of the [65536, 64] result lies in the block of the point `4·(r / 2048) + 3`, so the 32 write-backs cover the
  array, and after the run the result array is the matrix product, the arguments unchanged.
-/
import proofs.«100020_j16475494548010_1_alg».proof.Proof.Accumulate

noncomputable section

namespace Cert.KernelIdeal.WholeArray

open Cert.KernelIdeal Cert.KernelIdeal.Gen Cert.KernelIdeal.Blocks Cert.KernelIdeal.Accumulate Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- What the last point of a row tile writes back is that tile's rows of the matrix product. -/
theorem flushed_eq (c : Dev nD) (t : Fin cfg0.N) (hf : (cfg0.win 2).flush t = true) :
    (dats m 0 c).flushed 2 t = ((cfg0.win 2).blk t).view.read (Elt Ideal) (product (lhsArr m c) (rhsArr m c)) := by
  have h3 : t.val % 4 = 3 := (flush0_2 t).mp hf
  have hN : t.val < 128 := lt_of_lt_of_eq t.isLt (show cfg0.N = 128 from N_0)
  obtain ⟨-, -, -, -, e4, e5⟩ := block_indices t
  rw [Value.flushed2]
  funext y
  have hy0 : (y 0).val < 2048 := (y 0).isLt
  have hy1 : (y 1).val < 64 := (y 1).isLt
  show (outsAt0 m c t.val t.isLt).1 y = product (lhsArr m c) (rhsArr m c) (((cfg0.win 2).blk t).view.emb y)
  have hout := out_apply m c t h3 ⟨(y 0).val, hy0⟩ ⟨(y 1).val, hy1⟩ (by show 2048 * (t.val / 4) + (y 0).val < 65536; omega)
  have ey : (ix2 (⟨(y 0).val, hy0⟩ : Fin 2048) (⟨(y 1).val, hy1⟩ : Fin 64)) = y := by
    funext a; match a with | ⟨0, _⟩ => rfl | ⟨1, _⟩ => rfl
  rw [ey] at hout
  rw [hout]
  refine congrArg (product (lhsArr m c) (rhsArr m c)) ?_
  funext a; apply Fin.ext
  match a with
  | ⟨0, _⟩ => show 2048 * (t.val / 4) + (y 0).val = win0_2.index t (0 : Fin 2) * 2048 + 1 * (y 0).val; omega
  | ⟨1, _⟩ => show (y 1).val = win0_2.index t (1 : Fin 2) * 64 + 1 * (y 1).val; omega

/-- An entry of the result array is in point `t`'s block iff each coordinate is in the block's range on its axis. -/
theorem mem_block (t : Fin cfg0.N) (i : S65536x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v0).slice (win0_2.rect t)).set ↔ _
  rw [View.set_slice_whole, Rect.mem_set_unit]
  exact Iff.rfl

/-- Every entry of the result array is written back by the last point of its row tile. -/
theorem covered (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  have hlt : 4 * ((i 0).val / 2048) + 3 < cfg0.N := lt_of_lt_of_eq (by omega) (show 128 = cfg0.N from N_0.symm)
  have hq : (4 * ((i 0).val / 2048) + 3) / 4 = (i 0).val / 2048 := by omega
  have hr : (4 * ((i 0).val / 2048) + 3) % 4 = 3 := by omega
  obtain ⟨-, -, -, -, e4, e5⟩ := block_indices ⟨4 * ((i 0).val / 2048) + 3, hlt⟩
  refine ⟨⟨4 * ((i 0).val / 2048) + 3, hlt⟩, (flush0_2 _).mpr hr, ?_⟩
  rw [mem_block]
  intro a
  match a with
  | ⟨0, _⟩ =>
    show win0_2.index ⟨4 * ((i 0).val / 2048) + 3, hlt⟩ (0 : Fin 2) * 2048 ≤ (i 0).val ∧ (i 0).val < win0_2.index ⟨4 * ((i 0).val / 2048) + 3, hlt⟩ (0 : Fin 2) * 2048 + 2048
    rw [e4]; dsimp only; rw [hq]; omega
  | ⟨1, _⟩ =>
    show win0_2.index ⟨4 * ((i 0).val / 2048) + 3, hlt⟩ (1 : Fin 2) * 64 ≤ (i 1).val ∧ (i 1).val < win0_2.index ⟨4 * ((i 0).val / 2048) + 3, hlt⟩ (1 : Fin 2) * 64 + 64
    rw [e5]; omega

/-- After the run the result array is the matrix product of the argument arrays as the region found them. -/
theorem result_eq (c : Dev nD) : (dats m 0 c).arrAt 2 cfg0.N = product (lhsArr m c) (rhsArr m c) :=
  (dats m 0 c).arrAt_eq_of_cover 2 (product (lhsArr m c) (rhsArr m c)) (flushed_eq m c) covered

/-- The kernel's run: it terminates with the result array at the matrix product of its two arguments, which it leaves
    unchanged. -/
theorem run : θ_run defs (onTc (τ := τ) (main (F := Ideal))) ⟨m, fun _ => 0, ρ⟩ fun r => ∀ c : Dev nD,
      r.2.mem ((c : Thread nD τ).loc main_v0) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.WholeArray

end
-- ==== Proof.RefProduct.lean ====
/-
  The reference computes the specification.

  The reference is one contraction of the [65536, 4096] array with the [4096, 64] array over their shared axis.  Read
  at an entry `(r, q)` at the ideal instance it is `Σ_{k < 4096} A[r, k] · B[k, q]`: the matrix product of `Cert.Spec`.
-/
import proofs.«100020_j16475494548010_1_alg».proof.Proof.Gen.ReferenceIdeal.Read
import proofs.«100020_j16475494548010_1_alg».proof.Proof.Spec

noncomputable section

namespace Cert.ReferenceIdeal.RefProduct

open Cert.ReferenceIdeal Cert.ReferenceIdeal.Read Cert.Spec Idealize.ShloMosaic Idealize.ShloMosaic.ValueIdx

/-- The left operand is read in the entry's row at the contracted position … -/
theorem left_index (i : S65536x64.Idx) (k : Fin 4096) : lidx_main_v0 i k = ix2 (i 0) k :=
  funext fun a => Fin.ext (by match a with | ⟨0, _⟩ => rfl | ⟨1, _⟩ => rfl)

/-- … and the right operand at the contracted position in the entry's column. -/
theorem right_index (i : S65536x64.Idx) (k : Fin 4096) : ridx_main_v0 i k = ix2 k (i 1) :=
  funext fun a => Fin.ext (by match a with | ⟨0, _⟩ => rfl | ⟨1, _⟩ => rfl)

/-- The reference's result, as a function of its two arguments, is their matrix product. -/
theorem result_eq_product (x0 : (⟨S65536x4096, .f32⟩ : BufTy).Contents (Elt Ideal)) (x1 : (⟨S4096x64, .f32⟩ : BufTy).Contents (Elt Ideal)) :
    val_main_v0 (F := Ideal) x0 x1 = product x0 x1 := by
  funext i
  rw [val_main_v0_apply]
  unfold product
  refine Finset.sum_congr rfl fun k _ => ?_
  rw [left_index, right_index]
  rfl

end Cert.ReferenceIdeal.RefProduct

end
-- ==== Proof.lean ====
/-
  A matrix product accumulated chunk by chunk equals the matrix product.

  The kernel multiplies a [65536, 4096] array by a [4096, 64] array on a 32 × 4 grid: for each tile of 2048 rows it
  walks the contracted axis in four chunks of 1024, resets a [2048, 64] accumulator at the first chunk, adds the
  chunk's partial product at every chunk, and writes the accumulator out after the last.  The reference is one
  contraction over all 4096 positions.  Over the extended reals both give, at entry `(r, q)`,

      Σ_{k < 4096} A[r, k] · B[k, q]:

  the kernel's value is `0 + Σ_{s < 4} Σ_{k < 1024} A[r, 1024·s + k] · B[1024·s + k, q]`, and regrouping a finite sum
  into consecutive runs uses only associativity and the unit law of addition, so the precondition (finite inputs) is
  never opened.  The kernel's idealization rewrote nothing, so the idealization claim is trivially true.

  Where each step lives: `SumSplit` (regrouping), `Spec` (the product and its four-chunk form), `BlockProduct` (one
  point's arithmetic at an entry), `Pieces` (what each control case leaves in the accumulator and the output block),
  `Blocks` (which array entries a point's blocks hold), `Accumulate` (the sum over a row tile's four points),
  `WholeArray` (the 32 written blocks cover the result), `RefProduct` (the reference is the product).
-/
import proofs.«100020_j16475494548010_1_alg».proof.Defs
import proofs.«100020_j16475494548010_1_alg».proof.Proof.Gen.Kernel
import proofs.«100020_j16475494548010_1_alg».proof.Proof.Gen.Kernel.Frame
import proofs.«100020_j16475494548010_1_alg».proof.Proof.Gen.KernelIdeal
import proofs.«100020_j16475494548010_1_alg».proof.Proof.Gen.KernelIdeal.Frame
import proofs.«100020_j16475494548010_1_alg».proof.Proof.Gen.KernelIdeal.Value
import proofs.«100020_j16475494548010_1_alg».proof.Proof.Gen.ReferenceIdeal
import proofs.«100020_j16475494548010_1_alg».proof.Proof.Gen.ReferenceIdeal.Run
import proofs.«100020_j16475494548010_1_alg».proof.Proof.Gen.ReferenceIdeal.Read
import proofs.«100020_j16475494548010_1_alg».proof.Proof.Gen.Pre_finite_inputs
import proofs.«100020_j16475494548010_1_alg».proof.Proof.WholeArray
import proofs.«100020_j16475494548010_1_alg».proof.Proof.RefProduct
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments, both programs end with the result array at the matrix product of
    the arguments: the kernel by accumulating four partial products per row tile, the reference by one contraction. -/
theorem algebraic : Cert.algebraic_KernelIdeal_ReferenceIdeal := by
  intro m ρ m' ρ' _ hagree
  refine ⟨fun c => Cert.Spec.product (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefProduct.result_eq_product, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
